-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S8192x4096 : Shape := ⟨2, ![8192, 4096]⟩
abbrev S4096 : Shape := ⟨1, ![4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  main_v53

def fn_part2 {F : FTy → Type} [FloatOps F] (main_arg7 : FVec F S8192x4096 .f32) (main_arg8 : FVec F S4096 .f32) (main_arg9 : FVec F S8192x4096 .f32) (main_arg10 : FVec F S4096 .f32) (main_v33 : IVec S_ 1) : IVec S_ 1 :=
  let main_v34 : FVec F S8192x4096 .f32 := Host.absf main_arg7
  let main_cst_12 : FVec F S_ .f32 := constant S_ .f32 0x7F800000#32
  let main_v35 : FVec F S8192x4096 .f32 := broadcastInDim S8192x4096 ![] bcast_S_S8192x4096 main_cst_12
  let main_v36 : IVec S8192x4096 1 := cmpf .olt main_v34 main_v35
  let main_c_13 : IVec S_ 1 := constantI S_ 1 1#1
  let main_v37 : IVec S_ 1 := (fun x v => Host.reduce IntOp.andi x v reducesTo_S8192x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S8192x4096 .f32 := Host.absf main_arg9
  let main_cst_16 : FVec F S_ .f32 := constant S_ .f32 0x7F800000#32
  let main_v45 : FVec F S8192x4096 .f32 := broadcastInDim S8192x4096 ![] bcast_S_S8192x4096 main_cst_16
  let main_v46 : IVec S8192x4096 1 := cmpf .olt main_v44 main_v45
  let main_c_17 : IVec S_ 1 := constantI S_ 1 1#1
  let main_v47 : IVec S_ 1 := (fun x v => Host.reduce IntOp.andi x v reducesTo_S8192x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_v48 main_v49 main_v50

def fn_part1 {F : FTy → Type} [FloatOps F] (main_arg4 : FVec F S4096 .f32) (main_arg5 : FVec F S8192x4096 .f32) (main_arg6 : FVec F S4096 .f32) (main_arg7 : FVec F S8192x4096 .f32) (main_arg8 : FVec F S4096 .f32) (main_arg9 : FVec F S8192x4096 .f32) (main_arg10 : FVec F S4096 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S8192x4096 .f32 := Host.absf main_arg5
  let main_cst_8 : FVec F S_ .f32 := constant S_ .f32 0x7F800000#32
  let main_v25 : FVec F S8192x4096 .f32 := broadcastInDim S8192x4096 ![] bcast_S_S8192x4096 main_cst_8
  let main_v26 : IVec S8192x4096 1 := cmpf .olt main_v24 main_v25
  let main_c_9 : IVec S_ 1 := constantI S_ 1 1#1
  let main_v27 : IVec S_ 1 := (fun x v => Host.reduce IntOp.andi x v reducesTo_S8192x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x4096 .f32) (main_arg1 : FVec F S1x4096 .f32) (main_arg2 : FVec F S1x4096 .f32) (main_arg3 : FVec F S8192x4096 .f32) (main_arg4 : FVec F S4096 .f32) (main_arg5 : FVec F S8192x4096 .f32) (main_arg6 : FVec F S4096 .f32) (main_arg7 : FVec F S8192x4096 .f32) (main_arg8 : FVec F S4096 .f32) (main_arg9 : FVec F S8192x4096 .f32) (main_arg10 : FVec F S4096 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_arg5 main_arg6 main_arg7 main_arg8 main_arg9 main_arg10 main_v13 main_v16
-- ==== Kernel.lean ====
abbrev S1x4096 : Shape := ⟨2, ![1, 4096]⟩
abbrev S8192x4096 : Shape := ⟨2, ![8192, 4096]⟩
abbrev S4096 : Shape := ⟨1, ![4096]⟩
abbrev S1x8192 : Shape := ⟨2, ![1, 8192]⟩
abbrev S1x1024 : Shape := ⟨2, ![1, 1024]⟩
abbrev S1x512 : Shape := ⟨2, ![1, 512]⟩
abbrev S1024x512 : Shape := ⟨2, ![1024, 512]⟩

abbrev nBuf : Space → Nat
  | .hbm => 17
  | .vmem => 26
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S8192x4096, .f32⟩
  | .hbm, ⟨4, _⟩ => ⟨S4096, .f32⟩
  | .hbm, ⟨5, _⟩ => ⟨S8192x4096, .f32⟩
  | .hbm, ⟨6, _⟩ => ⟨S4096, .f32⟩
  | .hbm, ⟨7, _⟩ => ⟨S8192x4096, .f32⟩
  | .hbm, ⟨8, _⟩ => ⟨S4096, .f32⟩
  | .hbm, ⟨9, _⟩ => ⟨S8192x4096, .f32⟩
  | .hbm, ⟨10, _⟩ => ⟨S4096, .f32⟩
  | .hbm, ⟨11, _⟩ => ⟨S1x8192, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .local _ .vmem, ⟨0, _⟩ => ⟨S1x1024, .f32⟩
  | .local _ .vmem, ⟨1, _⟩ => ⟨S1x1024, .f32⟩
  | .local _ .vmem, ⟨2, _⟩ => ⟨S1x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_29 : BitVec 32 := 0#32
  let v40 : BitVec 1 := Scalar.cmpi .ne v39 c0_i32_29
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  concatenates_S1x4096_S1x4096_S1x8192_d1 : Shape.Concatenates [S1x4096, S1x4096] S1x8192 1
  shapeCasts_S4096_S1x4096 : S4096.ShapeCasts S1x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  dot_S1x1024_S1024x512_S1x512_1_0_0_1_n_n_wf : DotDims.WF S1x1024 S1024x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x8192.size a
  hwx0_0 : ∀ i : grid0.Coords, EltTy.bits .f32 = 32 ∨ (Rect.block (s := S1x8192) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .f32 = 32 ∨ (Rect.block (s := S1x4096) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x4096.size a
  hwx0_4 : ∀ i : grid0.Coords, EltTy.bits .f32 = 32 ∨ (Rect.block (s := S8192x4096) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x4096.size a
  hwx0_5 : ∀ i : grid0.Coords, EltTy.bits .f32 = 32 ∨ (Rect.block (s := S8192x4096) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .f32 = 32 ∨ (Rect.block (s := S1x4096) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x4096.size a
  hwx0_8 : ∀ i : grid0.Coords, EltTy.bits .f32 = 32 ∨ (Rect.block (s := S1x4096) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x4096.size a
  hwx0_9 : ∀ i : grid0.Coords, EltTy.bits .f32 = 32 ∨ (Rect.block (s := S1x4096) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x4096.size a
  hwx0_10 : ∀ i : grid0.Coords, EltTy.bits .f32 = 32 ∨ (Rect.block (s := S1x4096) S1x512.size (cc0_transform_10 i) (hinb0_10 i)).WholeWords (EltTy.packing .f32)

variable [Facts₀]

def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf

abbrev win0_0 : Pipeline.Window sig grid0 :=
  Pipeline.Window.ofSpec (Memref.whole main_v0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S1x4096 : Shape := ⟨2, ![1, 4096]⟩
abbrev S8192x4096 : Shape := ⟨2, ![8192, 4096]⟩
abbrev S4096 : Shape := ⟨1, ![4096]⟩
abbrev S1x8192 : Shape := ⟨2, ![1, 8192]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S8192x4096, .f32⟩
  | .hbm, ⟨4, _⟩ => ⟨S4096, .f32⟩
  | .hbm, ⟨5, _⟩ => ⟨S8192x4096, .f32⟩
  | .hbm, ⟨6, _⟩ => ⟨S4096, .f32⟩
  | .hbm, ⟨7, _⟩ => ⟨S8192x4096, .f32⟩
  | .hbm, ⟨8, _⟩ => ⟨S4096, .f32⟩
  | .hbm, ⟨9, _⟩ => ⟨S8192x4096, .f32⟩
  | .hbm, ⟨10, _⟩ => ⟨S4096, .f32⟩
  | .hbm, ⟨11, _⟩ => ⟨S1x8192, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S_, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S_, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S1x4096, .f32⟩
  | .hbm, ⟨41, _⟩ => ⟨S1x4096, .f32⟩
  | .hbm, ⟨42, _⟩ => ⟨S1x4096, .f32⟩
  | .hbm, ⟨43, _⟩ => ⟨S_, .f32⟩
  | .hbm, ⟨44, _⟩ => ⟨S1x4096, .f32⟩
  | .hbm, ⟨45, _⟩ => ⟨S1x4096, .f32⟩
  | .hbm, ⟨46, _⟩ => ⟨S_, .f32⟩
  | .hbm, ⟨47, _⟩ => ⟨S1x4096, .f32⟩
  | .hbm, ⟨48, _⟩ => ⟨S1x4096, .f32⟩
  | .hbm, ⟨49, _⟩ => ⟨S1x4096, .f32⟩
  | .hbm, ⟨50, _⟩ => ⟨S1x4096, .f32⟩
  | .hbm, ⟨51, _⟩ => ⟨S1x4096, .f32⟩
  | .hbm, ⟨52, _⟩ => ⟨S1x4096, .f32⟩
  | .hbm, ⟨53, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  concatenates_S1x4096_S1x4096_S1x8192_d1 : Shape.Concatenates [S1x4096, S1x4096] S1x8192 1
  bcast_S4096_S1x4096_1 : S4096.BroadcastsInDim S1x4096 (![1] : Fin 1 → Fin S1x4096.rank)
  bcast_S_S1x4096 : S_.BroadcastsInDim S1x4096 (![] : Fin 0 → Fin S1x4096.rank)
  dot_S1x8192_S8192x4096_S1x4096_1_0_0_1_n_n_wf : DotDims.WF S1x8192 S8192x4096 S1x4096 [1] [0] [0] [1] [] []

variable [Facts₀]

def dot_S1x8192_S8192x4096_S1x4096_1_0_0_1_n_n : DotDims S1x8192 S8192x4096 S1x4096 where
  lhsContracting := [1]
  rhsContracting := [0]
  lhsNonContracting := [0]
  rhsNonContracting := [1]
  lhsBatch := []
  rhsBatch := []
  wf := dot_S1x8192_S8192x4096_S1x4096_1_0_0_1_n_n_wf

class Facts : Prop extends Facts₀ where

variable [Facts]
-- ==== Proof.KPieces.lean ====
import proofs.«181372_j66554813218862_1_alg».proof.Proof.Gen.KernelIdeal.Frame
import Idealize.ShloMosaic.Lib.Pipeline.Value

/-! # What one grid point leaves in the accumulators and in the output block

The kernel visits, for each tile of 512 output columns, eight tiles of 1024 contraction rows in turn. It keeps
four accumulators, one per gate. At the first row tile it clears each accumulator and adds that tile's product
of the row block with the gate's weight block; at every later row tile it adds that tile's product to what the
point before left; at the last row tile it also forms the output block from the four accumulators just updated,
the four bias blocks and the cell-state block.

Here each of those contents, which the kernel's run records as lists of stored pieces, is read back as one
closed term over the point's input blocks (and, after the first row tile, the accumulators' previous contents):
a store through the whole buffer leaves its value whatever was stored before, and a load of a buffer just stored
whole reads that value. -/

set_option maxRecDepth 16384

noncomputable section

open Idealize.ShloMosaic Idealize.ShloMosaic.TcCoe Idealize.ShloMosaic.Tactic
open Idealize.SL Idealize.SL.Sem
open Cert.KernelIdeal Cert.KernelIdeal.Gen

namespace Cert.Cell.Pieces

variable {F : FTy → Type} [FloatOps F]

/-- The zero offsets of a whole-buffer rectangle. -/
theorem hz : (![0, 0] : Fin 2 → Nat) = fun _ => 0 := funext fun a => by fin_cases a <;> rfl

/- The body's operands at a grid point: the eleven staging buffers and the four accumulators, each whole. -/
variable (c : Dev nD) (i : grid0.Coords)
  (arg2 : Memref sig .tc .vmem S1x1024 .f32) (harg2 : arg2.IsWhole)
  (arg3 : Memref sig .tc .vmem S1x512 .f32) (harg3 : arg3.IsWhole)
  (arg4 : Memref sig .tc .vmem S1024x512 .f32) (harg4 : arg4.IsWhole)
  (arg5 : Memref sig .tc .vmem S1024x512 .f32) (harg5 : arg5.IsWhole)
  (arg6 : Memref sig .tc .vmem S1024x512 .f32) (harg6 : arg6.IsWhole)
  (arg7 : Memref sig .tc .vmem S1024x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S1x512 .f32) (harg15 : arg15.IsWhole)
  (arg16 : Memref sig .tc .vmem S1x512 .f32) (harg16 : arg16.IsWhole)

/- READING A PIECE LIST BACK. The contents `d` are the pieces the run `r` recorded, written over anything and read;
   the pieces cover the buffer (`cov`), so this is their canonical value; the step `s` says which piece decides
   (the only one, or the last of two); what remains are loads of whole buffers at their known contents. -/
set_option hygiene false in
local macro "read_back " d:ident " of " r:ident " covered " cov:term " deciding " s:tactic : tactic =>
  `(tactic| (
    unfold $d
    rw [View.read_writes_eq_canon _ _ _ $cov]
    unfold $r
    dsimp only
    sl_unfold_words
    $s
    simp only [View.readAt_eq_ld, harg2.read_unread, harg3.read_unread, harg4.read_unread, harg5.read_unread,
      harg6.read_unread, harg7.read_unread, harg8.read_unread, harg9.read_unread, harg10.read_unread,
      harg11.read_unread, harg12.read_unread, harg13.read_unread, harg14.read_unread, harg15.read_unread,
      harg16.read_unread, View.ld_unit_zero (S := S1x1024) hz, View.ld_unit_zero (S := S1024x512) hz,
      View.ld_unit_zero (S := S1x512) hz, View.readCov_unit_zero (S := S1x512) _ hz]))

/-! ## The first row tile: cleared, then one product added -/

section First
variable (hc0 : cond0_0 i) (hc1 : ¬cond0_1 i)
  (x0 : Vec F S1x1024 .f32) (x1 : Vec F S1x512 .f32) (x2 : Vec F S1024x512 .f32) (x3 : Vec F S1024x512 .f32)
  (x4 : Vec F S1024x512 .f32) (x5 : Vec F S1024x512 .f32) (x6 : Vec F S1x512 .f32) (x7 : Vec F S1x512 .f32)
  (x8 : Vec F S1x512 .f32) (x9 : Vec F S1x512 .f32)

/-- The forget gate's accumulator after a first row tile: zero plus the tile's product. -/
theorem first_0 : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9
    = k0_pay8 x0 (k0_pay3 (F := F)) x2 := by
  read_back sout0_A_0 of kernelRun0_A
    covered (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)
    deciding rw [View.canon_cons_unit_zero (S := S1x512) hz]

/-- The input gate's accumulator after a first row tile. -/
theorem first_1 : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9
    = k0_pay9 x0 (k0_pay4 (F := F)) x3 := by
  read_back sout0_A_1 of kernelRun0_A
    covered (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)
    deciding rw [View.canon_cons_unit_zero (S := S1x512) hz]

/-- The candidate gate's accumulator after a first row tile. -/
theorem first_2 : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9
    = k0_pay10 x0 (k0_pay5 (F := F)) x4 := by
  read_back sout0_A_2 of kernelRun0_A
    covered (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)
    deciding rw [View.canon_cons_unit_zero (S := S1x512) hz]

/-- The output gate's accumulator after a first row tile. -/
theorem first_3 : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9
    = k0_pay1 (k0_pay7 x0) (k0_pay6 (F := F)) x5 := by
  read_back sout0_A_3 of kernelRun0_A
    covered (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)
    deciding rw [View.canon_cons_unit_zero (S := S1x512) hz]

end First

/-! ## A middle row tile: one product added to what the point before left -/

section Middle
variable (hc0 : ¬cond0_0 i) (hc1 : ¬cond0_1 i)
  (x0 : Vec F S1x1024 .f32) (x1 : Vec F S1x512 .f32) (x2 : Vec F S1024x512 .f32) (x3 : Vec F S1024x512 .f32)
  (x4 : Vec F S1024x512 .f32) (x5 : Vec F S1024x512 .f32) (x6 : Vec F S1x512 .f32) (x7 : Vec F S1x512 .f32)
  (x8 : Vec F S1x512 .f32) (x9 : Vec F S1x512 .f32)
  (xs0 : Vec F S1x512 .f32) (xs1 : Vec F S1x512 .f32) (xs2 : Vec F S1x512 .f32) (xs3 : Vec F S1x512 .f32)

/-- The forget gate's accumulator after a middle row tile. -/
theorem middle_0 : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
    = k0_pay8 x0 xs0 x2 := by
  read_back sout0_B_0 of kernelRun0_B
    covered (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)
    deciding rw [View.canon_unit_zero (S := S1x512) hz]

/-- The input gate's accumulator after a middle row tile. -/
theorem middle_1 : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
    = k0_pay9 x0 xs1 x3 := by
  read_back sout0_B_1 of kernelRun0_B
    covered (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)
    deciding rw [View.canon_unit_zero (S := S1x512) hz]

/-- The candidate gate's accumulator after a middle row tile. -/
theorem middle_2 : sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
    = k0_pay10 x0 xs2 x4 := by
  read_back sout0_B_2 of kernelRun0_B
    covered (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)
    deciding rw [View.canon_unit_zero (S := S1x512) hz]

/-- The output gate's accumulator after a middle row tile. -/
theorem middle_3 : sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
    = k0_pay1 (k0_pay7 x0) xs3 x5 := by
  read_back sout0_B_3 of kernelRun0_B
    covered (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)
    deciding rw [View.canon_unit_zero (S := S1x512) hz]

end Middle

/-! ## The last row tile: one product added, and the output block formed -/

section Last
variable (hc0 : ¬cond0_0 i) (hc1 : cond0_1 i)
  (x0 : Vec F S1x1024 .f32) (x1 : Vec F S1x512 .f32) (x2 : Vec F S1024x512 .f32) (x3 : Vec F S1024x512 .f32)
  (x4 : Vec F S1024x512 .f32) (x5 : Vec F S1024x512 .f32) (x6 : Vec F S1x512 .f32) (x7 : Vec F S1x512 .f32)
  (x8 : Vec F S1x512 .f32) (x9 : Vec F S1x512 .f32)
  (xs0 : Vec F S1x512 .f32) (xs1 : Vec F S1x512 .f32) (xs2 : Vec F S1x512 .f32) (xs3 : Vec F S1x512 .f32)

/-- The forget gate's accumulator after the last row tile. -/
theorem last_0 : sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
    = k0_pay8 x0 xs0 x2 := by
  read_back sout0_C_0 of kernelRun0_C
    covered (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)
    deciding rw [View.canon_unit_zero (S := S1x512) hz]

/-- The input gate's accumulator after the last row tile. -/
theorem last_1 : sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
    = k0_pay9 x0 xs1 x3 := by
  read_back sout0_C_1 of kernelRun0_C
    covered (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)
    deciding rw [View.canon_unit_zero (S := S1x512) hz]

/-- The candidate gate's accumulator after the last row tile. -/
theorem last_2 : sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
    = k0_pay10 x0 xs2 x4 := by
  read_back sout0_C_2 of kernelRun0_C
    covered (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)
    deciding rw [View.canon_unit_zero (S := S1x512) hz]

/-- The output gate's accumulator after the last row tile. -/
theorem last_3 : sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
    = k0_pay1 (k0_pay7 x0) xs3 x5 := by
  read_back sout0_C_3 of kernelRun0_C
    covered (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)
    deciding rw [View.canon_unit_zero (S := S1x512) hz]

/-- The output block at the last row tile: the cell formula over the four accumulators as just updated, the four
    bias blocks and the cell-state block. -/
theorem last_out : out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
    = k0_pay2 (k0_pay8 x0 xs0 x2) x6 (k0_pay9 x0 xs1 x3) x7 (k0_pay10 x0 xs2 x4) x8 (k0_pay1 (k0_pay7 x0) xs3 x5) x9 x1 := by
  read_back out0_C_10 of kernelRun0_C
    covered (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)
    deciding rw [View.canon_unit_zero (S := S1x512) hz]

end Last

end Cert.Cell.Pieces
-- ==== Proof.KTile.lean ====
import proofs.«181372_j66554813218862_1_alg».proof.Proof.Gen.KernelIdeal.Skeleton
import Idealize.ShloMosaic.PureOps.Ideal.Laws
import Idealize.ShloMosaic.Lib.ValueIdx
import Idealize.ShloMosaic.Lib.Pipeline.Value

/-! # One row tile's contribution, and the cell formula, entry by entry

On the extended reals a change of float format is the identity and the matrix unit's product into a zero
accumulator is the plain sum of products over the contraction index. So what a grid point adds to a gate's
accumulator at local column `q` is `∑ r < 1024, a(0, r) · B(r, q)` for the point's row block `a` and the gate's
weight block `B`, and the accumulator's new content there is its old content plus that sum.

The output block's formula, read at local column `q`, is the cell formula over the four accumulators, the four
bias blocks and the cell-state block at `q`; the kernel's logistic operation is the logistic function. -/

noncomputable section

open scoped BigOperators

namespace Cert.Cell.Tile

open Cert.KernelIdeal Cert.KernelIdeal.Gen Idealize.ShloMosaic Idealize.ShloMosaic.ValueIdx

/-! ## The matrix product's operand indices -/

theorem lhs_0 (j : S1x512.Idx) (q : dot_S1x1024_S1024x512_S1x512_1_0_0_1_n_n.contr.Idx) :
    (dot_S1x1024_S1024x512_S1x512_1_0_0_1_n_n.lhsIdx j q 0).val = (j 0).val := by
  unfold DotDims.lhsIdx
  rw [dif_neg (show ¬(0 : Fin S1x1024.rank) ∈ dot_S1x1024_S1024x512_S1x512_1_0_0_1_n_n.lhsBatch by decide), dif_pos (show (0 : Fin S1x1024.rank) ∈ dot_S1x1024_S1024x512_S1x512_1_0_0_1_n_n.lhsNonContracting by decide)]
  rfl

theorem lhs_1 (j : S1x512.Idx) (q : dot_S1x1024_S1024x512_S1x512_1_0_0_1_n_n.contr.Idx) :
    (dot_S1x1024_S1024x512_S1x512_1_0_0_1_n_n.lhsIdx j q 1).val = (q ⟨0, by decide⟩).val :=
  dot_S1x1024_S1024x512_S1x512_1_0_0_1_n_n.lhsIdx_val_of_single rfl j q

theorem rhs_0 (j : S1x512.Idx) (q : dot_S1x1024_S1024x512_S1x512_1_0_0_1_n_n.contr.Idx) :
    (dot_S1x1024_S1024x512_S1x512_1_0_0_1_n_n.rhsIdx j q 0).val = (q ⟨0, by decide⟩).val :=
  dot_S1x1024_S1024x512_S1x512_1_0_0_1_n_n.rhsIdx_val_of_single rfl j q

theorem rhs_1 (j : S1x512.Idx) (q : dot_S1x1024_S1024x512_S1x512_1_0_0_1_n_n.contr.Idx) :
    (dot_S1x1024_S1024x512_S1x512_1_0_0_1_n_n.rhsIdx j q 1).val = (j 1).val := by
  unfold DotDims.rhsIdx
  rw [dif_neg (show ¬(1 : Fin S1024x512.rank) ∈ dot_S1x1024_S1024x512_S1x512_1_0_0_1_n_n.rhsBatch by decide), dif_pos (show (1 : Fin S1024x512.rank) ∈ dot_S1x1024_S1024x512_S1x512_1_0_0_1_n_n.rhsNonContracting by decide)]
  rfl

/-! ## One tile's product -/

/-- The row block times a weight block, into the zero accumulator, at local column `q`: the sum over the tile's
    1024 rows. -/
theorem product_apply (a : FVec Ideal S1x1024 .bf16) (B : FVec Ideal S1024x512 .bf16) (q : Fin 512) :
    matmul (F := Ideal) dot_S1x1024_S1024x512_S1x512_1_0_0_1_n_n none a B (constant (F := Ideal) S1x512 .f32 0x00000000#32) (ix2 (0 : Fin 1) q)
      = ∑ r : Fin 1024, a (ix2 (0 : Fin 1) r) * B (ix2 r q) := by
  simp only [matmul]
  rw [Ideal.matmul_constant_zero_apply, ← Equiv.sum_comp (contrEquiv1 dot_S1x1024_S1024x512_S1x512_1_0_0_1_n_n 1024 rfl rfl).symm]
  refine Finset.sum_congr rfl fun k _ => ?_
  have hk := contrEquiv1_symm_val dot_S1x1024_S1024x512_S1x512_1_0_0_1_n_n 1024 rfl rfl k
  have el : dot_S1x1024_S1024x512_S1x512_1_0_0_1_n_n.lhsIdx (ix2 (0 : Fin 1) q) ((contrEquiv1 dot_S1x1024_S1024x512_S1x512_1_0_0_1_n_n 1024 rfl rfl).symm k) = ix2 (0 : Fin 1) k := funext fun a => Fin.ext (by
    match a with
    | ⟨0, _⟩ => exact lhs_0 _ _
    | ⟨1, _⟩ => exact (lhs_1 _ _).trans hk)
  have er : dot_S1x1024_S1024x512_S1x512_1_0_0_1_n_n.rhsIdx (ix2 (0 : Fin 1) q) ((contrEquiv1 dot_S1x1024_S1024x512_S1x512_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-- What a point leaves in a gate's accumulator: the old content plus the product of the row block (narrowed) with
    the gate's weight block (narrowed), accumulated from zero. The four gates' stored values are this one term. -/
def step (x0 : Vec Ideal S1x1024 .f32) (acc : Vec Ideal S1x512 .f32) (W : Vec Ideal S1024x512 .f32) : FVec Ideal S1x512 .f32 :=
  shapeCast S1x512 (addf acc (matmul (F := Ideal) dot_S1x1024_S1024x512_S1x512_1_0_0_1_n_n none
    (truncf .bf16 (shapeCast S1x1024 x0 shapeCasts_S1x1024_S1x1024) bitsLt_bf16_f32) (truncf .bf16 W bitsLt_bf16_f32)
    (constant (F := Ideal) S1x512 .f32 0x00000000#32))) shapeCasts_S1x512_S1x512

theorem pay8_eq (x0 : Vec Ideal S1x1024 .f32) (acc : Vec Ideal S1x512 .f32) (W : Vec Ideal S1024x512 .f32) :
    k0_pay8 (F := Ideal) x0 acc W = step x0 acc W := rfl
theorem pay9_eq (x0 : Vec Ideal S1x1024 .f32) (acc : Vec Ideal S1x512 .f32) (W : Vec Ideal S1024x512 .f32) :
    k0_pay9 (F := Ideal) x0 acc W = step x0 acc W := rfl
theorem pay10_eq (x0 : Vec Ideal S1x1024 .f32) (acc : Vec Ideal S1x512 .f32) (W : Vec Ideal S1024x512 .f32) :
    k0_pay10 (F := Ideal) x0 acc W = step x0 acc W := rfl
theorem pay1_eq (x0 : Vec Ideal S1x1024 .f32) (acc : Vec Ideal S1x512 .f32) (W : Vec Ideal S1024x512 .f32) :
    k0_pay1 (F := Ideal) (k0_pay7 (F := Ideal) x0) acc W = step x0 acc W := rfl

/-- THE STEP AT A COLUMN: old content plus the tile's sum of products. -/
theorem step_apply (x0 : Vec Ideal S1x1024 .f32) (acc : Vec Ideal S1x512 .f32) (W : Vec Ideal S1024x512 .f32) (q : Fin 512) :
    step x0 acc W (ix2 (0 : Fin 1) q) = acc (ix2 (0 : Fin 1) q) + ∑ r : Fin 1024, x0 (ix2 (0 : Fin 1) r) * W (ix2 r q) := by
  unfold step
  rw [shapeCast_self, addf_apply, product_apply]
  simp only [truncf_apply, shapeCast_self]

/-- The cleared accumulators hold zero. -/
theorem zero3 (y : S1x512.Idx) : k0_pay3 (F := Ideal) y = 0 := by
  show Ideal.ofBits .f32 0x00000000#32 = 0
  exact Ideal.ofBits_zero_f32
theorem zero4 (y : S1x512.Idx) : k0_pay4 (F := Ideal) y = 0 := zero3 y
theorem zero5 (y : S1x512.Idx) : k0_pay5 (F := Ideal) y = 0 := zero3 y
theorem zero6 (y : S1x512.Idx) : k0_pay6 (F := Ideal) y = 0 := zero3 y

/-! ## The output block's formula -/

/-- THE OUTPUT AT A COLUMN: the cell formula over the accumulators `af ai ac ao`, the bias blocks and the
    cell-state block, all at that column. -/
theorem out_apply (af bf ai bi ac bc ao bo cs : Vec Ideal S1x512 .f32) (y : S1x512.Idx) :
    k0_pay2 (F := Ideal) af bf ai bi ac bc ao bo cs y
      = Ideal.logistic (ao y + bo y)
        * Ideal.tanh (cs y * Ideal.logistic (af y + bf y) + Ideal.tanh (ac y + bc y) * Ideal.logistic (ai y + bi y)) := by
  unfold k0_pay2
  simp only [shapeCast_self]
  rfl

end Cert.Cell.Tile
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.CellSpec.lean ====
import Idealize.ShloMosaic.PureOps.Ideal
import Idealize.ShloMosaic.PureOps.Ideal.Laws
import Idealize.ShloMosaic.Lib.ValueIdx
import proofs.«181372_j66554813218862_1_alg».proof.Proof.LibSumBlocks

/-! # The gated recurrent cell as one function of its arguments

The cell has four gates. Each gate's pre-activation at output column `n` is the inner product of the
concatenated row `cat = [h, x]` (8192 entries) with column `n` of that gate's weight matrix, plus the gate's
bias at `n`. With `σ x = 1 / (1 + e^(-x))` the new hidden state at column `n` is

  `σ(o_n) · tanh (c_n · σ(f_n) + tanh(g_n) · σ(i_n))`

where `f, i, g, o` are the forget, input, candidate and output pre-activations.

The inner product over 8192 rows may be taken eight tiles of 1024 rows at a time: a sum over consecutive
blocks is the sum over all indices, in any commutative additive monoid — so also on the extended reals, with
no finiteness asked of any entry. -/

noncomputable section

open scoped BigOperators

namespace Cert.Cell

open Idealize.ShloMosaic Idealize.ShloMosaic.ValueIdx

/-- A gate's pre-activation at output column `n`: the row `cat` against column `n` of `W`, plus the bias. -/
def gatePre (cat : FVec Ideal ⟨2, ![1, 8192]⟩ .f32) (W : FVec Ideal ⟨2, ![8192, 4096]⟩ .f32)
    (b : FVec Ideal ⟨1, ![4096]⟩ .f32) (n : Fin 4096) : EReal :=
  (∑ k : Fin 8192, cat (ix2 0 k) * W (ix2 k n)) + b (ix1 n)

/-- The cell's new hidden state, column by column. -/
def cell (cat : FVec Ideal ⟨2, ![1, 8192]⟩ .f32) (c : FVec Ideal ⟨2, ![1, 4096]⟩ .f32)
    (Wf : FVec Ideal ⟨2, ![8192, 4096]⟩ .f32) (bf : FVec Ideal ⟨1, ![4096]⟩ .f32)
    (Wi : FVec Ideal ⟨2, ![8192, 4096]⟩ .f32) (bi : FVec Ideal ⟨1, ![4096]⟩ .f32)
    (Wc : FVec Ideal ⟨2, ![8192, 4096]⟩ .f32) (bc : FVec Ideal ⟨1, ![4096]⟩ .f32)
    (Wo : FVec Ideal ⟨2, ![8192, 4096]⟩ .f32) (bo : FVec Ideal ⟨1, ![4096]⟩ .f32) :
    FVec Ideal ⟨2, ![1, 4096]⟩ .f32 := fun j =>
  Ideal.logistic (gatePre cat Wo bo (j 1))
    * Ideal.tanh (c j * Ideal.logistic (gatePre cat Wf bf (j 1))
        + Ideal.tanh (gatePre cat Wc bc (j 1)) * Ideal.logistic (gatePre cat Wi bi (j 1)))

/-- Row `r` of the `s`-th tile of 1024 rows (the tile taken modulo eight) is a row of the 8192. -/
theorem tileRow_lt (s : ℕ) (r : Fin 1024) : 1024 * (s % 8) + r.val < 8192 := by
  have := Nat.mod_lt s (show 0 < 8 by decide); have := r.isLt; omega

/-- One tile's share of an inner product over 8192 rows: the 1024 rows of tile `s % 8`. -/
def tileSum (f : Fin 8192 → EReal) (s : ℕ) : EReal :=
  ∑ r : Fin 1024, f ⟨1024 * (s % 8) + r.val, tileRow_lt s r⟩

/-- EIGHT TILES MAKE THE WHOLE: starting from a multiple of eight, the shares of eight consecutive tiles add up to
    the sum over all 8192 rows. -/
theorem sum_tiles (f : Fin 8192 → EReal) (n : ℕ) :
    ∑ s ∈ Finset.range 8, tileSum f (8 * n + s) = ∑ k : Fin 8192, f k := by
  rw [Finset.sum_range, ← Cert.LibSumBlocks.sum_blocks (A := 8) (B := 1024) (N := 8192) rfl f]
  refine Finset.sum_congr rfl fun t _ => ?_
  unfold tileSum
  refine Finset.sum_congr rfl fun r _ => congrArg f (Fin.ext ?_)
  show 1024 * ((8 * n + t.val) % 8) + r.val = 1024 * t.val + r.val
  rw [Nat.mul_add_mod, Nat.mod_eq_of_lt t.isLt]

end Cert.Cell
-- ==== Proof.KBlocks.lean ====
import proofs.«181372_j66554813218862_1_alg».proof.Proof.Gen.KernelIdeal.Frame
import proofs.«181372_j66554813218862_1_alg».proof.Proof.CellSpec
import Idealize.ShloMosaic.Lib.ValueIdx
import Idealize.ShloMosaic.Lib.Pipeline.Value
import Idealize.ShloMosaic.Lib.StableHlo.Run

/-! # Where a grid point's blocks sit in the arrays

Grid point `t` of the 64 works on column tile `t / 8` (512 columns each) and row tile `t % 8` (1024 rows each).
Its row block is entries `1024·(t % 8) + r` of the concatenated row; a gate's weight block is rows
`1024·(t % 8) + r`, columns `512·(t / 8) + q` of the gate's matrix; the cell-state, bias and output blocks are
columns `512·(t / 8) + q`. An element of a block sits in its array, on each axis, at the block index times the
block's size plus its own coordinate; the block indices are the printed index maps, decided here over the grid.

Two kinds of arrays are written by the host before the region: the concatenated row, which both programs form by
the same operation and which is kept as that one term; and the four biases reshaped from 4096 entries to a
1 × 4096 row, entry `(0, n)` of which is entry `n` of the bias. -/

noncomputable section

namespace Cert.Cell.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-! ## The block indices -/

/-- The printed index maps over the grid: the row window moves with the row tile, the column windows with the
    column tile, a weight window with both. -/
theorem idx_facts : ∀ t : Fin cfg0.N,
    (win0_0.index t (0 : Fin 2) = 0 ∧ win0_0.index t (1 : Fin 2) = t.val % 8)
    ∧ (win0_1.index t (0 : Fin 2) = 0 ∧ win0_1.index t (1 : Fin 2) = t.val / 8)
    ∧ (win0_2.index t (0 : Fin 2) = t.val % 8 ∧ win0_2.index t (1 : Fin 2) = t.val / 8)
    ∧ (win0_3.index t (0 : Fin 2) = t.val % 8 ∧ win0_3.index t (1 : Fin 2) = t.val / 8)
    ∧ (win0_4.index t (0 : Fin 2) = t.val % 8 ∧ win0_4.index t (1 : Fin 2) = t.val / 8)
    ∧ (win0_5.index t (0 : Fin 2) = t.val % 8 ∧ win0_5.index t (1 : Fin 2) = t.val / 8)
    ∧ (win0_6.index t (0 : Fin 2) = 0 ∧ win0_6.index t (1 : Fin 2) = t.val / 8)
    ∧ (win0_7.index t (0 : Fin 2) = 0 ∧ win0_7.index t (1 : Fin 2) = t.val / 8)
    ∧ (win0_8.index t (0 : Fin 2) = 0 ∧ win0_8.index t (1 : Fin 2) = t.val / 8)
    ∧ (win0_9.index t (0 : Fin 2) = 0 ∧ win0_9.index t (1 : Fin 2) = t.val / 8)
    ∧ (win0_10.index t (0 : Fin 2) = 0 ∧ win0_10.index t (1 : Fin 2) = t.val / 8) :=
  (by decide +kernel : ∀ t : Fin grid0.N, _)

/-- A point's column tile is one of the eight. -/
theorem colTile_lt (t : Fin cfg0.N) : t.val / 8 < 8 := by
  have h := lt_of_lt_of_eq t.isLt (show cfg0.N = 64 from N_0); omega

/-- Row `r` of point `t`'s row tile, among the 8192. -/
def row (t : Fin cfg0.N) (r : Fin 1024) : Fin 8192 := ⟨1024 * (t.val % 8) + r.val, Cert.Cell.tileRow_lt t.val r⟩

/-- Column `q` of point `t`'s column tile, among the 4096. -/
def col (t : Fin cfg0.N) (q : Fin 512) : Fin 4096 :=
  ⟨512 * (t.val / 8) + q.val, by have := colTile_lt t; have := q.isLt; omega⟩

/-! ## The blocks and the arrays, at their literal types -/

abbrev rowBlk (c : Dev nD) (t : Fin cfg0.N) : Vec F S1x1024 .f32 := iblk m c 0 t
abbrev cellBlk (c : Dev nD) (t : Fin cfg0.N) : Vec F S1x512 .f32 := iblk m c 1 t
abbrev wfBlk (c : Dev nD) (t : Fin cfg0.N) : Vec F S1024x512 .f32 := iblk m c 2 t
abbrev wiBlk (c : Dev nD) (t : Fin cfg0.N) : Vec F S1024x512 .f32 := iblk m c 3 t
abbrev wcBlk (c : Dev nD) (t : Fin cfg0.N) : Vec F S1024x512 .f32 := iblk m c 4 t
abbrev woBlk (c : Dev nD) (t : Fin cfg0.N) : Vec F S1024x512 .f32 := iblk m c 5 t
abbrev bfBlk (c : Dev nD) (t : Fin cfg0.N) : Vec F S1x512 .f32 := iblk m c 6 t
abbrev biBlk (c : Dev nD) (t : Fin cfg0.N) : Vec F S1x512 .f32 := iblk m c 7 t
abbrev bcBlk (c : Dev nD) (t : Fin cfg0.N) : Vec F S1x512 .f32 := iblk m c 8 t
abbrev boBlk (c : Dev nD) (t : Fin cfg0.N) : Vec F S1x512 .f32 := iblk m c 9 t

abbrev catArr (c : Dev nD) : Vec F S1x8192 .f32 := V m c main_v0
abbrev cellArr (c : Dev nD) : Vec F S1x4096 .f32 := V m c main_arg1
abbrev wfArr (c : Dev nD) : Vec F S8192x4096 .f32 := V m c main_arg3
abbrev wiArr (c : Dev nD) : Vec F S8192x4096 .f32 := V m c main_arg5
abbrev wcArr (c : Dev nD) : Vec F S8192x4096 .f32 := V m c main_arg7
abbrev woArr (c : Dev nD) : Vec F S8192x4096 .f32 := V m c main_arg9
abbrev bfRow (c : Dev nD) : Vec F S1x4096 .f32 := V m c main_v1
abbrev biRow (c : Dev nD) : Vec F S1x4096 .f32 := V m c main_v2
abbrev bcRow (c : Dev nD) : Vec F S1x4096 .f32 := V m c main_v3
abbrev boRow (c : Dev nD) : Vec F S1x4096 .f32 := V m c main_v4

/-! ## A block's entry in its array -/

/-- The row block's entry `r` is entry `row t r` of the concatenated row. -/
theorem rowBlk_apply (c : Dev nD) (t : Fin cfg0.N) (r : Fin 1024) :
    rowBlk m c t (ix2 (0 : Fin 1) r) = catArr m c (ix2 (0 : Fin 1) (row t r)) := by
  obtain ⟨⟨e0, e1⟩, -⟩ := idx_facts t
  show V m c main_v0 (((cfg0.win 0).blk t).view.emb (ix2 (0 : Fin 1) r)) = V m c main_v0 (ix2 (0 : Fin 1) (row t r))
  refine congrArg (V m c main_v0) (funext fun a => Fin.ext ?_)
  match a with
  | ⟨0, _⟩ => show win0_0.index t (0 : Fin 2) * 1 + 1 * 0 = 0; omega
  | ⟨1, _⟩ => show win0_0.index t (1 : Fin 2) * 1024 + 1 * r.val = 1024 * (t.val % 8) + r.val; omega

/-- A block of one row of 512 columns whose window moves with the column tile: its entry `q` is entry `col t q`. -/
theorem cellBlk_apply (c : Dev nD) (t : Fin cfg0.N) (q : Fin 512) :
    cellBlk m c t (ix2 (0 : Fin 1) q) = cellArr m c (ix2 (0 : Fin 1) (col t q)) := by
  obtain ⟨-, ⟨e0, e1⟩, -⟩ := idx_facts t
  show V m c main_arg1 (((cfg0.win 1).blk t).view.emb (ix2 (0 : Fin 1) q)) = V m c main_arg1 (ix2 (0 : Fin 1) (col t q))
  refine congrArg (V m c main_arg1) (funext fun a => Fin.ext ?_)
  match a with
  | ⟨0, _⟩ => show win0_1.index t (0 : Fin 2) * 1 + 1 * 0 = 0; omega
  | ⟨1, _⟩ => show win0_1.index t (1 : Fin 2) * 512 + 1 * q.val = 512 * (t.val / 8) + q.val; omega

theorem bfBlk_apply (c : Dev nD) (t : Fin cfg0.N) (q : Fin 512) :
    bfBlk m c t (ix2 (0 : Fin 1) q) = bfRow m c (ix2 (0 : Fin 1) (col t q)) := by
  obtain ⟨-, -, -, -, -, -, ⟨e0, e1⟩, -⟩ := idx_facts t
  show V m c main_v1 (((cfg0.win 6).blk t).view.emb (ix2 (0 : Fin 1) q)) = V m c main_v1 (ix2 (0 : Fin 1) (col t q))
  refine congrArg (V m c main_v1) (funext fun a => Fin.ext ?_)
  match a with
  | ⟨0, _⟩ => show win0_6.index t (0 : Fin 2) * 1 + 1 * 0 = 0; omega
  | ⟨1, _⟩ => show win0_6.index t (1 : Fin 2) * 512 + 1 * q.val = 512 * (t.val / 8) + q.val; omega

theorem biBlk_apply (c : Dev nD) (t : Fin cfg0.N) (q : Fin 512) :
    biBlk m c t (ix2 (0 : Fin 1) q) = biRow m c (ix2 (0 : Fin 1) (col t q)) := by
  obtain ⟨-, -, -, -, -, -, -, ⟨e0, e1⟩, -⟩ := idx_facts t
  show V m c main_v2 (((cfg0.win 7).blk t).view.emb (ix2 (0 : Fin 1) q)) = V m c main_v2 (ix2 (0 : Fin 1) (col t q))
  refine congrArg (V m c main_v2) (funext fun a => Fin.ext ?_)
  match a with
  | ⟨0, _⟩ => show win0_7.index t (0 : Fin 2) * 1 + 1 * 0 = 0; omega
  | ⟨1, _⟩ => show win0_7.index t (1 : Fin 2) * 512 + 1 * q.val = 512 * (t.val / 8) + q.val; omega

theorem bcBlk_apply (c : Dev nD) (t : Fin cfg0.N) (q : Fin 512) :
    bcBlk m c t (ix2 (0 : Fin 1) q) = bcRow m c (ix2 (0 : Fin 1) (col t q)) := by
  obtain ⟨-, -, -, -, -, -, -, -, ⟨e0, e1⟩, -⟩ := idx_facts t
  show V m c main_v3 (((cfg0.win 8).blk t).view.emb (ix2 (0 : Fin 1) q)) = V m c main_v3 (ix2 (0 : Fin 1) (col t q))
  refine congrArg (V m c main_v3) (funext fun a => Fin.ext ?_)
  match a with
  | ⟨0, _⟩ => show win0_8.index t (0 : Fin 2) * 1 + 1 * 0 = 0; omega
  | ⟨1, _⟩ => show win0_8.index t (1 : Fin 2) * 512 + 1 * q.val = 512 * (t.val / 8) + q.val; omega

theorem boBlk_apply (c : Dev nD) (t : Fin cfg0.N) (q : Fin 512) :
    boBlk m c t (ix2 (0 : Fin 1) q) = boRow m c (ix2 (0 : Fin 1) (col t q)) := by
  obtain ⟨-, -, -, -, -, -, -, -, -, ⟨e0, e1⟩, -⟩ := idx_facts t
  show V m c main_v4 (((cfg0.win 9).blk t).view.emb (ix2 (0 : Fin 1) q)) = V m c main_v4 (ix2 (0 : Fin 1) (col t q))
  refine congrArg (V m c main_v4) (funext fun a => Fin.ext ?_)
  match a with
  | ⟨0, _⟩ => show win0_9.index t (0 : Fin 2) * 1 + 1 * 0 = 0; omega
  | ⟨1, _⟩ => show win0_9.index t (1 : Fin 2) * 512 + 1 * q.val = 512 * (t.val / 8) + q.val; omega

/-- A weight block's entry `(r, q)` is entry `(row t r, col t q)` of the gate's matrix. -/
theorem wfBlk_apply (c : Dev nD) (t : Fin cfg0.N) (r : Fin 1024) (q : Fin 512) :
    wfBlk m c t (ix2 r q) = wfArr m c (ix2 (row t r) (col t q)) := by
  obtain ⟨-, -, ⟨e0, e1⟩, -⟩ := idx_facts t
  show V m c main_arg3 (((cfg0.win 2).blk t).view.emb (ix2 r q)) = V m c main_arg3 (ix2 (row t r) (col t q))
  refine congrArg (V m c main_arg3) (funext fun a => Fin.ext ?_)
  match a with
  | ⟨0, _⟩ => show win0_2.index t (0 : Fin 2) * 1024 + 1 * r.val = 1024 * (t.val % 8) + r.val; omega
  | ⟨1, _⟩ => show win0_2.index t (1 : Fin 2) * 512 + 1 * q.val = 512 * (t.val / 8) + q.val; omega

theorem wiBlk_apply (c : Dev nD) (t : Fin cfg0.N) (r : Fin 1024) (q : Fin 512) :
    wiBlk m c t (ix2 r q) = wiArr m c (ix2 (row t r) (col t q)) := by
  obtain ⟨-, -, -, ⟨e0, e1⟩, -⟩ := idx_facts t
  show V m c main_arg5 (((cfg0.win 3).blk t).view.emb (ix2 r q)) = V m c main_arg5 (ix2 (row t r) (col t q))
  refine congrArg (V m c main_arg5) (funext fun a => Fin.ext ?_)
  match a with
  | ⟨0, _⟩ => show win0_3.index t (0 : Fin 2) * 1024 + 1 * r.val = 1024 * (t.val % 8) + r.val; omega
  | ⟨1, _⟩ => show win0_3.index t (1 : Fin 2) * 512 + 1 * q.val = 512 * (t.val / 8) + q.val; omega

theorem wcBlk_apply (c : Dev nD) (t : Fin cfg0.N) (r : Fin 1024) (q : Fin 512) :
    wcBlk m c t (ix2 r q) = wcArr m c (ix2 (row t r) (col t q)) := by
  obtain ⟨-, -, -, -, ⟨e0, e1⟩, -⟩ := idx_facts t
  show V m c main_arg7 (((cfg0.win 4).blk t).view.emb (ix2 r q)) = V m c main_arg7 (ix2 (row t r) (col t q))
  refine congrArg (V m c main_arg7) (funext fun a => Fin.ext ?_)
  match a with
  | ⟨0, _⟩ => show win0_4.index t (0 : Fin 2) * 1024 + 1 * r.val = 1024 * (t.val % 8) + r.val; omega
  | ⟨1, _⟩ => show win0_4.index t (1 : Fin 2) * 512 + 1 * q.val = 512 * (t.val / 8) + q.val; omega

theorem woBlk_apply (c : Dev nD) (t : Fin cfg0.N) (r : Fin 1024) (q : Fin 512) :
    woBlk m c t (ix2 r q) = woArr m c (ix2 (row t r) (col t q)) := by
  obtain ⟨-, -, -, -, -, ⟨e0, e1⟩, -⟩ := idx_facts t
  show V m c main_arg9 (((cfg0.win 5).blk t).view.emb (ix2 r q)) = V m c main_arg9 (ix2 (row t r) (col t q))
  refine congrArg (V m c main_arg9) (funext fun a => Fin.ext ?_)
  match a with
  | ⟨0, _⟩ => show win0_5.index t (0 : Fin 2) * 1024 + 1 * r.val = 1024 * (t.val % 8) + r.val; omega
  | ⟨1, _⟩ => show win0_5.index t (1 : Fin 2) * 512 + 1 * q.val = 512 * (t.val / 8) + q.val; omega

/-! ## The arrays the host wrote before the region -/

/-- The concatenated row is the host's concatenation of the hidden state and the input. -/
theorem catArr_eq (c : Dev nD) :
    catArr m c = concatenate S1x8192 1 [⟨S1x4096, m ((c : Thread nD τ).loc main_arg2)⟩, ⟨S1x4096, m ((c : Thread nD τ).loc main_arg0)⟩]
      concatenates_S1x4096_S1x4096_S1x8192_d1 := by
  show V m c main_v0 = _
  dsimp only [V, hostOps0]
  after_results

/-- A bias reshaped to one row of 4096 reads, at `(0, n)`, the bias at `n`. -/
theorem reshaped_apply (b : Vec F S4096 .f32) (n : Fin 4096) :
    shapeCast S1x4096 b shapeCasts_S4096_S1x4096 (ix2 (0 : Fin 1) n) = b (ix1 n) :=
  shapeCast_apply b shapeCasts_S4096_S1x4096 (ix2 (0 : Fin 1) n) (ix1 n) (by
    rw [Shape.rowMajor_val_one, Shape.rowMajor_val_two]
    show n.val = 0 * 4096 + n.val
    omega)

theorem bfRow_apply (c : Dev nD) (n : Fin 4096) :
    bfRow m c (ix2 (0 : Fin 1) n) = m ((c : Thread nD τ).loc main_arg4) (ix1 n) := by
  have e : bfRow m c = shapeCast S1x4096 (m ((c : Thread nD τ).loc main_arg4)) shapeCasts_S4096_S1x4096 := by
    show V m c main_v1 = _
    dsimp only [V, hostOps0]
    after_results
    rfl
  rw [e, reshaped_apply]

theorem biRow_apply (c : Dev nD) (n : Fin 4096) :
    biRow m c (ix2 (0 : Fin 1) n) = m ((c : Thread nD τ).loc main_arg6) (ix1 n) := by
  have e : biRow m c = shapeCast S1x4096 (m ((c : Thread nD τ).loc main_arg6)) shapeCasts_S4096_S1x4096 := by
    show V m c main_v2 = _
    dsimp only [V, hostOps0]
    after_results
    rfl
  rw [e, reshaped_apply]

theorem bcRow_apply (c : Dev nD) (n : Fin 4096) :
    bcRow m c (ix2 (0 : Fin 1) n) = m ((c : Thread nD τ).loc main_arg8) (ix1 n) := by
  have e : bcRow m c = shapeCast S1x4096 (m ((c : Thread nD τ).loc main_arg8)) shapeCasts_S4096_S1x4096 := by
    show V m c main_v3 = _
    dsimp only [V, hostOps0]
    after_results
    rfl
  rw [e, reshaped_apply]

theorem boRow_apply (c : Dev nD) (n : Fin 4096) :
    boRow m c (ix2 (0 : Fin 1) n) = m ((c : Thread nD τ).loc main_arg10) (ix1 n) := by
  have e : boRow m c = shapeCast S1x4096 (m ((c : Thread nD τ).loc main_arg10)) shapeCasts_S4096_S1x4096 := by
    show V m c main_v4 = _
    dsimp only [V, hostOps0]
    after_results
    rfl
  rw [e, reshaped_apply]

/-- The arrays no host operation writes are the arguments as launched. -/
theorem cellArr_eq (c : Dev nD) : cellArr m c = m ((c : Thread nD τ).loc main_arg1) := V_main_arg1 m c
theorem wfArr_eq (c : Dev nD) : wfArr m c = m ((c : Thread nD τ).loc main_arg3) := V_main_arg3 m c
theorem wiArr_eq (c : Dev nD) : wiArr m c = m ((c : Thread nD τ).loc main_arg5) := V_main_arg5 m c
theorem wcArr_eq (c : Dev nD) : wcArr m c = m ((c : Thread nD τ).loc main_arg7) := V_main_arg7 m c
theorem woArr_eq (c : Dev nD) : woArr m c = m ((c : Thread nD τ).loc main_arg9) := V_main_arg9 m c

end Cert.Cell.Blocks
-- ==== Proof.KFold.lean ====
import proofs.«181372_j66554813218862_1_alg».proof.Proof.Gen.KernelIdeal.Value
import proofs.«181372_j66554813218862_1_alg».proof.Proof.KPieces
import proofs.«181372_j66554813218862_1_alg».proof.Proof.KTile
import proofs.«181372_j66554813218862_1_alg».proof.Proof.KBlocks

/-! # The accumulators along a run of eight row tiles

For a fixed column tile the kernel's eight grid points `8n, 8n + 1, …, 8n + 7` walk the eight row tiles. A gate's
accumulator is cleared and given the first tile's share at `8n`, and given one more tile's share at each later
point. So after point `t` it holds, at local column `q`, the sum of the shares of tiles `0 … t % 8`:

  `∑ s ≤ t % 8, ∑ r < 1024, cat(0, 1024·s + r) · W(1024·s + r, 512·(t / 8) + q)`

with `cat` the concatenated row and `W` the gate's matrix. Only the associativity of the sum is used: the statement
holds for all extended-real entries. -/

noncomputable section

open scoped BigOperators

namespace Cert.Cell.Fold

open Cert.KernelIdeal Cert.KernelIdeal.Gen Cert.KernelIdeal.Value
open Idealize.ShloMosaic Idealize.ShloMosaic.TcCoe Idealize.SL.Sem Idealize.ShloMosaic.ValueIdx
open Cert.Cell Cert.Cell.Blocks Cert.Cell.Tile

variable (m : (ℓ : Loc nD τ sig) → Buf (Elt Ideal) ℓ)

/-- A gate's inner product restricted to tile `s % 8`, for output column `n`. -/
def share (cat : Vec Ideal S1x8192 .f32) (W : Vec Ideal S8192x4096 .f32) (n : Fin 4096) (s : ℕ) : EReal :=
  tileSum (fun k => cat (ix2 (0 : Fin 1) k) * W (ix2 k n)) s

/-- The column of an index of a block of one row. -/
def colOf (y : S1x512.Idx) : Fin 512 := ⟨(y 1).val, idx2_lt1 y⟩

/-- An index of a block of one row is `(0, its column)`. -/
theorem idx_row (y : S1x512.Idx) : y = ix2 (0 : Fin 1) (colOf y) :=
  funext fun a => by
    match a with
    | ⟨0, _⟩ => exact Fin.ext (by have := idx2_lt0 y; show (y 0).val = 0; omega)
    | ⟨1, _⟩ => rfl

theorem colOf_ix2 (q : Fin 512) : colOf (ix2 (0 : Fin 1) q) = q := Fin.ext rfl

/-- Two points of one run of eight share the column tile. -/
theorem col_congr (p t : Fin cfg0.N) (h : p.val / 8 = t.val / 8) (q : Fin 512) : col p q = col t q :=
  Fin.ext (by show 512 * (p.val / 8) + q.val = 512 * (t.val / 8) + q.val; rw [h])

/-- ONE STEP, IN THE ARRAYS: for a row block and a weight block that are point `p`'s blocks of `cat` and `W`, the
    stored value at column `q` is the old content plus tile `p % 8`'s share. -/
theorem step_share (p : Fin cfg0.N) (xb : Vec Ideal S1x1024 .f32) (Wb : Vec Ideal S1024x512 .f32)
    (cat : Vec Ideal S1x8192 .f32) (W : Vec Ideal S8192x4096 .f32)
    (hx : ∀ r : Fin 1024, xb (ix2 (0 : Fin 1) r) = cat (ix2 (0 : Fin 1) (row p r)))
    (hW : ∀ (r : Fin 1024) (q : Fin 512), Wb (ix2 r q) = W (ix2 (row p r) (col p q)))
    (acc : Vec Ideal S1x512 .f32) (q : Fin 512) :
    step xb acc Wb (ix2 (0 : Fin 1) q) = acc (ix2 (0 : Fin 1) q) + share cat W (col p q) p.val := by
  rw [step_apply]
  refine congrArg (acc (ix2 (0 : Fin 1) q) + ·) ?_
  unfold share tileSum
  refine Finset.sum_congr rfl fun r _ => ?_
  rw [hx r, hW r q]
  rfl

/-- THE FOLD IS THE SUM OF SHARES. A quantity that at a run's first point is zero plus that tile's share, and at each
    later point of the run its predecessor plus that tile's share, is after point `t` the sum of the shares of the
    run's tiles up to `t`'s. -/
theorem fold_sum (a : (n : ℕ) → n < cfg0.N → Vec Ideal S1x512 .f32)
    (g : (n : ℕ) → n < cfg0.N → Vec Ideal S1x512 .f32 → Vec Ideal S1x512 .f32)
    (cat : Vec Ideal S1x8192 .f32) (W : Vec Ideal S8192x4096 .f32)
    (hfirst : ∀ p : Fin cfg0.N, p.val % 8 = 0 → ∀ q : Fin 512,
      a p.val p.isLt (ix2 (0 : Fin 1) q) = 0 + share cat W (col p q) p.val)
    (hlater : ∀ p : Fin cfg0.N, ¬p.val % 8 = 0 → ∀ (acc : Vec Ideal S1x512 .f32) (q : Fin 512),
      g p.val p.isLt acc (ix2 (0 : Fin 1) q) = acc (ix2 (0 : Fin 1) q) + share cat W (col p q) p.val)
    (t : Fin cfg0.N) (q : Fin 512) (h' : 8 * (t.val / 8) + t.val % 8 < cfg0.N) :
    Pipeline.accAt a g (8 * (t.val / 8)) (t.val % 8) h' (ix2 (0 : Fin 1) q)
      = ∑ s ∈ Finset.range (t.val % 8 + 1), share cat W (col t q) (8 * (t.val / 8) + s) := by
  have hN : cfg0.N = 64 := N_0
  have key := Pipeline.accAt_add_apply (ι := S1x512.Idx) (β := EReal) a g (fun _ => 0)
    (fun n y => share cat W (col t (colOf y)) n) (8 * (t.val / 8)) 7
    (fun h y => by
      have e := hfirst ⟨8 * (t.val / 8), h⟩ (by show 8 * (t.val / 8) % 8 = 0; omega) (colOf y)
      rw [← idx_row y] at e
      rw [e, col_congr ⟨8 * (t.val / 8), h⟩ t (by show 8 * (t.val / 8) / 8 = t.val / 8; omega)])
    (fun n h acc y hb he => by
      have e := hlater ⟨n, h⟩ (by show ¬n % 8 = 0; omega) acc (colOf y)
      rw [← idx_row y] at e
      rw [e, col_congr ⟨n, h⟩ t (by show n / 8 = t.val / 8; omega)])
    (t.val % 8) (by omega) h' (ix2 (0 : Fin 1) q)
  rw [key, zero_add]
  simp only [colOf_ix2]

/-! ## The four gates' accumulators, point by point -/

variable (c : Dev nD)

/-- What the forget gate's accumulator holds after a first row tile. -/
theorem f_first (t : Fin cfg0.N) (h0 : t.val % 8 = 0) (acc : Vec Ideal S1x512 .f32) :
    scAt0_0 m c t.val t.isLt acc = step (rowBlk m c t) (k0_pay3 (F := Ideal)) (wfBlk m c t) := by
  unfold scAt0_0
  rw [dif_pos h0, dif_neg (show ¬t.val % 8 = 7 by omega)]
  exact (Pieces.first_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t)).trans
    (pay8_eq _ _ _)

/-- …and after any later row tile: one more step over what it held. -/
theorem f_later (t : Fin cfg0.N) (h0 : ¬t.val % 8 = 0) (acc : Vec Ideal S1x512 .f32) :
    scAt0_0 m c t.val t.isLt acc = step (rowBlk m c t) acc (wfBlk m c t) := by
  unfold scAt0_0
  rw [dif_neg h0]
  by_cases h1 : t.val % 8 = 7
  · rw [dif_pos h1]
    exact (Pieces.last_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) acc _ _ _).trans
      (pay8_eq _ _ _)
  · rw [dif_neg h1]
    exact (Pieces.middle_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) acc _ _ _).trans
      (pay8_eq _ _ _)

/-- THE FORGET GATE'S ACCUMULATOR after point `t`, at column `q`. -/
theorem f_acc (t : Fin cfg0.N) (q : Fin 512) :
    (outsAt0 m c t.val t.isLt).2.1 (ix2 (0 : Fin 1) q)
      = ∑ s ∈ Finset.range (t.val % 8 + 1), share (catArr m c) (wfArr m c) (col t q) (8 * (t.val / 8) + s) := by
  rw [soutsAt0_0_eq]
  refine fold_sum _ _ (catArr m c) (wfArr m c) (fun p h0 q => ?_) (fun p h0 acc q => ?_) t q _
  · show scAt0_0 m c p.val p.isLt _ (ix2 (0 : Fin 1) q) = _
    rw [f_first m c p h0, step_share p _ _ (catArr m c) (wfArr m c) (rowBlk_apply m c p) (wfBlk_apply m c p), zero3]
  · show scAt0_0 m c p.val p.isLt acc (ix2 (0 : Fin 1) q) = _
    rw [f_later m c p h0, step_share p _ _ (catArr m c) (wfArr m c) (rowBlk_apply m c p) (wfBlk_apply m c p)]

/-! The other three gates go the same way, each with its own accumulator, weight block and stored value. -/

/-- What the input gate's accumulator holds after a first row tile. -/
theorem i_first (t : Fin cfg0.N) (h0 : t.val % 8 = 0) (acc : Vec Ideal S1x512 .f32) :
    scAt0_1 m c t.val t.isLt acc = step (rowBlk m c t) (k0_pay4 (F := Ideal)) (wiBlk m c t) := by
  unfold scAt0_1
  rw [dif_pos h0, dif_neg (show ¬t.val % 8 = 7 by omega)]
  exact (Pieces.first_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t)).trans
    (pay9_eq _ _ _)

theorem i_later (t : Fin cfg0.N) (h0 : ¬t.val % 8 = 0) (acc : Vec Ideal S1x512 .f32) :
    scAt0_1 m c t.val t.isLt acc = step (rowBlk m c t) acc (wiBlk m c t) := by
  unfold scAt0_1
  rw [dif_neg h0]
  by_cases h1 : t.val % 8 = 7
  · rw [dif_pos h1]
    exact (Pieces.last_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) _ acc _ _).trans
      (pay9_eq _ _ _)
  · rw [dif_neg h1]
    exact (Pieces.middle_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) _ acc _ _).trans
      (pay9_eq _ _ _)

/-- THE INPUT GATE'S ACCUMULATOR after point `t`, at column `q`. -/
theorem i_acc (t : Fin cfg0.N) (q : Fin 512) :
    (outsAt0 m c t.val t.isLt).2.2.1 (ix2 (0 : Fin 1) q)
      = ∑ s ∈ Finset.range (t.val % 8 + 1), share (catArr m c) (wiArr m c) (col t q) (8 * (t.val / 8) + s) := by
  rw [soutsAt0_1_eq]
  refine fold_sum _ _ (catArr m c) (wiArr m c) (fun p h0 q => ?_) (fun p h0 acc q => ?_) t q _
  · show scAt0_1 m c p.val p.isLt _ (ix2 (0 : Fin 1) q) = _
    rw [i_first m c p h0, step_share p _ _ (catArr m c) (wiArr m c) (rowBlk_apply m c p) (wiBlk_apply m c p), zero4]
  · show scAt0_1 m c p.val p.isLt acc (ix2 (0 : Fin 1) q) = _
    rw [i_later m c p h0, step_share p _ _ (catArr m c) (wiArr m c) (rowBlk_apply m c p) (wiBlk_apply m c p)]

/-- What the candidate gate's accumulator holds after a first row tile. -/
theorem c_first (t : Fin cfg0.N) (h0 : t.val % 8 = 0) (acc : Vec Ideal S1x512 .f32) :
    scAt0_2 m c t.val t.isLt acc = step (rowBlk m c t) (k0_pay5 (F := Ideal)) (wcBlk m c t) := by
  unfold scAt0_2
  rw [dif_pos h0, dif_neg (show ¬t.val % 8 = 7 by omega)]
  exact (Pieces.first_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t)).trans
    (pay10_eq _ _ _)

theorem c_later (t : Fin cfg0.N) (h0 : ¬t.val % 8 = 0) (acc : Vec Ideal S1x512 .f32) :
    scAt0_2 m c t.val t.isLt acc = step (rowBlk m c t) acc (wcBlk m c t) := by
  unfold scAt0_2
  rw [dif_neg h0]
  by_cases h1 : t.val % 8 = 7
  · rw [dif_pos h1]
    exact (Pieces.last_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) _ _ acc _).trans
      (pay10_eq _ _ _)
  · rw [dif_neg h1]
    exact (Pieces.middle_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) _ _ acc _).trans
      (pay10_eq _ _ _)

/-- THE CANDIDATE GATE'S ACCUMULATOR after point `t`, at column `q`. -/
theorem c_acc (t : Fin cfg0.N) (q : Fin 512) :
    (outsAt0 m c t.val t.isLt).2.2.2.1 (ix2 (0 : Fin 1) q)
      = ∑ s ∈ Finset.range (t.val % 8 + 1), share (catArr m c) (wcArr m c) (col t q) (8 * (t.val / 8) + s) := by
  rw [soutsAt0_2_eq]
  refine fold_sum _ _ (catArr m c) (wcArr m c) (fun p h0 q => ?_) (fun p h0 acc q => ?_) t q _
  · show scAt0_2 m c p.val p.isLt _ (ix2 (0 : Fin 1) q) = _
    rw [c_first m c p h0, step_share p _ _ (catArr m c) (wcArr m c) (rowBlk_apply m c p) (wcBlk_apply m c p), zero5]
  · show scAt0_2 m c p.val p.isLt acc (ix2 (0 : Fin 1) q) = _
    rw [c_later m c p h0, step_share p _ _ (catArr m c) (wcArr m c) (rowBlk_apply m c p) (wcBlk_apply m c p)]

/-- What the output gate's accumulator holds after a first row tile. -/
theorem o_first (t : Fin cfg0.N) (h0 : t.val % 8 = 0) (acc : Vec Ideal S1x512 .f32) :
    scAt0_3 m c t.val t.isLt acc = step (rowBlk m c t) (k0_pay6 (F := Ideal)) (woBlk m c t) := by
  unfold scAt0_3
  rw [dif_pos h0, dif_neg (show ¬t.val % 8 = 7 by omega)]
  exact (Pieces.first_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t)).trans
    (pay1_eq _ _ _)

theorem o_later (t : Fin cfg0.N) (h0 : ¬t.val % 8 = 0) (acc : Vec Ideal S1x512 .f32) :
    scAt0_3 m c t.val t.isLt acc = step (rowBlk m c t) acc (woBlk m c t) := by
  unfold scAt0_3
  rw [dif_neg h0]
  by_cases h1 : t.val % 8 = 7
  · rw [dif_pos h1]
    exact (Pieces.last_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) _ _ _ acc).trans
      (pay1_eq _ _ _)
  · rw [dif_neg h1]
    exact (Pieces.middle_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) _ _ _ acc).trans
      (pay1_eq _ _ _)

/-- THE OUTPUT GATE'S ACCUMULATOR after point `t`, at column `q`. -/
theorem o_acc (t : Fin cfg0.N) (q : Fin 512) :
    (outsAt0 m c t.val t.isLt).2.2.2.2 (ix2 (0 : Fin 1) q)
      = ∑ s ∈ Finset.range (t.val % 8 + 1), share (catArr m c) (woArr m c) (col t q) (8 * (t.val / 8) + s) := by
  rw [soutsAt0_3_eq]
  refine fold_sum _ _ (catArr m c) (woArr m c) (fun p h0 q => ?_) (fun p h0 acc q => ?_) t q _
  · show scAt0_3 m c p.val p.isLt _ (ix2 (0 : Fin 1) q) = _
    rw [o_first m c p h0, step_share p _ _ (catArr m c) (woArr m c) (rowBlk_apply m c p) (woBlk_apply m c p), zero6]
  · show scAt0_3 m c p.val p.isLt acc (ix2 (0 : Fin 1) q) = _
    rw [o_later m c p h0, step_share p _ _ (catArr m c) (woArr m c) (rowBlk_apply m c p) (woBlk_apply m c p)]

/-- AFTER THE LAST ROW TILE a gate's accumulator holds the whole inner product over the 8192 rows. -/
theorem full_sum (cat : Vec Ideal S1x8192 .f32) (W : Vec Ideal S8192x4096 .f32) (n : Fin 4096) (t : Fin cfg0.N)
    (h1 : t.val % 8 = 7) :
    ∑ s ∈ Finset.range (t.val % 8 + 1), share cat W n (8 * (t.val / 8) + s)
      = ∑ k : Fin 8192, cat (ix2 (0 : Fin 1) k) * W (ix2 k n) := by
  rw [h1]
  exact sum_tiles (fun k => cat (ix2 (0 : Fin 1) k) * W (ix2 k n)) (t.val / 8)

end Cert.Cell.Fold
-- ==== Proof.KOut.lean ====
import proofs.«181372_j66554813218862_1_alg».proof.Proof.KFold

/-! # The kernel's result array is the cell

At the last row tile of a column tile the four accumulators hold the four gates' whole inner products, and the
output block the kernel stores there is the cell formula over them, the bias blocks and the cell-state block:
block `t / 8` of the function `cell` of the arrays. That block is written back at that point and at no other;
the eight written blocks tile the 4096 columns. So the run ends with the result array equal to `cell` of the
concatenated row, the cell state, the four matrices and the four biases. -/

noncomputable section

open scoped BigOperators

namespace Cert.Cell.Out

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Cell Cert.Cell.Blocks Cert.Cell.Tile Cert.Cell.Fold

variable (m : (ℓ : Loc nD τ sig) → Buf (Elt Ideal) ℓ) (ρ : Dev nD → PrngReg)

/-- The cell over what the region finds: the concatenated row the host wrote, and the arguments. -/
def result (c : Dev nD) : Vec Ideal S1x4096 .f32 :=
  cell (catArr m c) (cellArr m c)
    (wfArr m c) (m ((c : Thread nD τ).loc main_arg4)) (wiArr m c) (m ((c : Thread nD τ).loc main_arg6))
    (wcArr m c) (m ((c : Thread nD τ).loc main_arg8)) (woArr m c) (m ((c : Thread nD τ).loc main_arg10))

variable (c : Dev nD)

/-! ## The accumulators at the last row tile -/

section LastTile

/-- The forget gate's value stored at the last row tile, at column `q`, is its whole inner product. -/
theorem f_last (t : Fin cfg0.N) (h0 : ¬t.val % 8 = 0) (h1 : t.val % 8 = 7) (q : Fin 512) :
    k0_pay8 (F := Ideal) (iblk m c 0 t) (outsAt0 m c (t.val - 1) (Nat.lt_of_le_of_lt (Nat.sub_le _ _) t.isLt)).2.1 (iblk m c 2 t) (ix2 (0 : Fin 1) q)
      = ∑ k : Fin 8192, catArr m c (ix2 (0 : Fin 1) k) * wfArr m c (ix2 k (col t q)) := by
  have e : (outsAt0 m c t.val t.isLt).2.1
      = k0_pay8 (F := Ideal) (iblk m c 0 t) (outsAt0 m c (t.val - 1) (Nat.lt_of_le_of_lt (Nat.sub_le _ _) t.isLt)).2.1 (iblk m c 2 t) := by
    rw [outsAt0_C m c t h0 h1]
    dsimp only
    exact Pieces.last_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) _ _ _ _
  rw [← e, f_acc m c t q, full_sum _ _ _ t h1]

theorem i_last (t : Fin cfg0.N) (h0 : ¬t.val % 8 = 0) (h1 : t.val % 8 = 7) (q : Fin 512) :
    k0_pay9 (F := Ideal) (iblk m c 0 t) (outsAt0 m c (t.val - 1) (Nat.lt_of_le_of_lt (Nat.sub_le _ _) t.isLt)).2.2.1 (iblk m c 3 t) (ix2 (0 : Fin 1) q)
      = ∑ k : Fin 8192, catArr m c (ix2 (0 : Fin 1) k) * wiArr m c (ix2 k (col t q)) := by
  have e : (outsAt0 m c t.val t.isLt).2.2.1
      = k0_pay9 (F := Ideal) (iblk m c 0 t) (outsAt0 m c (t.val - 1) (Nat.lt_of_le_of_lt (Nat.sub_le _ _) t.isLt)).2.2.1 (iblk m c 3 t) := by
    rw [outsAt0_C m c t h0 h1]
    dsimp only
    exact Pieces.last_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) _ _ _ _
  rw [← e, i_acc m c t q, full_sum _ _ _ t h1]

theorem c_last (t : Fin cfg0.N) (h0 : ¬t.val % 8 = 0) (h1 : t.val % 8 = 7) (q : Fin 512) :
    k0_pay10 (F := Ideal) (iblk m c 0 t) (outsAt0 m c (t.val - 1) (Nat.lt_of_le_of_lt (Nat.sub_le _ _) t.isLt)).2.2.2.1 (iblk m c 4 t) (ix2 (0 : Fin 1) q)
      = ∑ k : Fin 8192, catArr m c (ix2 (0 : Fin 1) k) * wcArr m c (ix2 k (col t q)) := by
  have e : (outsAt0 m c t.val t.isLt).2.2.2.1
      = k0_pay10 (F := Ideal) (iblk m c 0 t) (outsAt0 m c (t.val - 1) (Nat.lt_of_le_of_lt (Nat.sub_le _ _) t.isLt)).2.2.2.1 (iblk m c 4 t) := by
    rw [outsAt0_C m c t h0 h1]
    dsimp only
    exact Pieces.last_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) _ _ _ _
  rw [← e, c_acc m c t q, full_sum _ _ _ t h1]

theorem o_last (t : Fin cfg0.N) (h0 : ¬t.val % 8 = 0) (h1 : t.val % 8 = 7) (q : Fin 512) :
    k0_pay1 (F := Ideal) (k0_pay7 (F := Ideal) (iblk m c 0 t)) (outsAt0 m c (t.val - 1) (Nat.lt_of_le_of_lt (Nat.sub_le _ _) t.isLt)).2.2.2.2 (iblk m c 5 t) (ix2 (0 : Fin 1) q)
      = ∑ k : Fin 8192, catArr m c (ix2 (0 : Fin 1) k) * woArr m c (ix2 k (col t q)) := by
  have e : (outsAt0 m c t.val t.isLt).2.2.2.2
      = k0_pay1 (F := Ideal) (k0_pay7 (F := Ideal) (iblk m c 0 t)) (outsAt0 m c (t.val - 1) (Nat.lt_of_le_of_lt (Nat.sub_le _ _) t.isLt)).2.2.2.2 (iblk m c 5 t) := by
    rw [outsAt0_C m c t h0 h1]
    dsimp only
    exact Pieces.last_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) _ _ _ _
  rw [← e, o_acc m c t q, full_sum _ _ _ t h1]

/-- THE OUTPUT BLOCK at the last row tile, at column `q`, is the cell at column `col t q`. -/
theorem out_last (t : Fin cfg0.N) (h0 : ¬t.val % 8 = 0) (h1 : t.val % 8 = 7) (q : Fin 512) :
    out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (ix2 (0 : Fin 1) q)
      = result m c (ix2 (0 : Fin 1) (col t q)) := by
  rw [Pieces.last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) _ _ _ _]
  rw [out_apply, f_last m c t h0 h1 q, i_last m c t h0 h1 q, c_last m c t h0 h1 q, o_last m c t h0 h1 q]
  have eb6 : iblk m c 6 t (ix2 (0 : Fin 1) q) = m ((c : Thread nD τ).loc main_arg4) (ix1 (col t q)) :=
    (bfBlk_apply m c t q).trans (bfRow_apply m c (col t q))
  have eb7 : iblk m c 7 t (ix2 (0 : Fin 1) q) = m ((c : Thread nD τ).loc main_arg6) (ix1 (col t q)) :=
    (biBlk_apply m c t q).trans (biRow_apply m c (col t q))
  have eb8 : iblk m c 8 t (ix2 (0 : Fin 1) q) = m ((c : Thread nD τ).loc main_arg8) (ix1 (col t q)) :=
    (bcBlk_apply m c t q).trans (bcRow_apply m c (col t q))
  have eb9 : iblk m c 9 t (ix2 (0 : Fin 1) q) = m ((c : Thread nD τ).loc main_arg10) (ix1 (col t q)) :=
    (boBlk_apply m c t q).trans (boRow_apply m c (col t q))
  have ec : iblk m c 1 t (ix2 (0 : Fin 1) q) = cellArr m c (ix2 (0 : Fin 1) (col t q)) := cellBlk_apply m c t q
  rw [eb6, eb7, eb8, eb9, ec]
  rfl

end LastTile

/-! ## From the blocks to the array -/

/-- A block of one row whose entry `q` is `G` at column `col t q`, for every `q`, is block `t` of `G`. -/
theorem block_eq (t : Fin cfg0.N) (X : Vec Ideal S1x512 .f32) (G : Vec Ideal S1x4096 .f32)
    (h : ∀ q : Fin 512, X (ix2 (0 : Fin 1) q) = G (ix2 (0 : Fin 1) (col t q))) :
    (cfg0.win 10).cut (grid0.coords t) X = ((cfg0.win 10).blk t).view.read (Elt Ideal) G := by
  obtain ⟨-, -, -, -, -, -, -, -, -, -, ⟨e0, e1⟩⟩ := idx_facts t
  funext y
  show X y = G (((cfg0.win 10).blk t).view.emb y)
  have hy := h (colOf y)
  rw [← idx_row y] at hy
  rw [hy]
  refine congrArg G (funext fun a => Fin.ext ?_)
  match a with
  | ⟨0, _⟩ => show 0 = win0_10.index t (0 : Fin 2) * 1 + 1 * (y 0).val; have := idx2_lt0 y; omega
  | ⟨1, _⟩ => show 512 * (t.val / 8) + (y 1).val = win0_10.index t (1 : Fin 2) * 512 + 1 * (y 1).val; omega

/-- WHAT A WRITING POINT WRITES BACK is its block of the cell. -/
theorem flushed_eq (t : Fin cfg0.N) (hf : (cfg0.win 10).flush t = true) :
    (dats m 0 c).flushed 10 t = ((cfg0.win 10).blk t).view.read (Elt Ideal) (result m c) := by
  have h1 : t.val % 8 = 7 := (flush0_10 t).mp hf
  have h0 : ¬t.val % 8 = 0 := by omega
  rw [flushed10_C m c t h0 h1]
  exact block_eq t _ (result m c) (out_last m c t h0 h1)

/-- An index of the result array is in point `t`'s block iff each coordinate is in the block's range on its axis. -/
theorem mem_blk (t : Fin cfg0.N) (i : S1x4096.Idx) :
    i ∈ ((cfg0.win 10).blk t).view.set ↔ ∀ a : Fin 2, win0_10.index t a * S1x512.size a ≤ (i a).val ∧ (i a).val < win0_10.index t a * S1x512.size a + S1x512.size a := by
  show i ∈ ((View.whole main_v5).slice (win0_10.rect t)).set ↔ _
  rw [View.set_slice_whole, Rect.mem_set_unit]
  exact Iff.rfl

/-- THE WRITTEN BLOCKS COVER THE ARRAY: column `n` lies in the block written at the last row tile of column tile
    `n / 512`. -/
theorem cover (i : S1x4096.Idx) :
    ∃ t : Fin cfg0.N, (cfg0.win 10).flush t = true ∧ i ∈ ((cfg0.win 10).blk t).view.set := by
  have hi0 : (i 0).val < 1 := idx2_lt0 i
  have hi1 : (i 1).val < 4096 := idx2_lt1 i
  have hN : cfg0.N = 64 := N_0
  let t : Fin cfg0.N := ⟨8 * ((i 1).val / 512) + 7, by omega⟩
  have ht : t.val = 8 * ((i 1).val / 512) + 7 := rfl
  obtain ⟨-, -, -, -, -, -, -, -, -, -, ⟨e0, e1⟩⟩ := idx_facts t
  refine ⟨t, (flush0_10 t).mpr (by omega), ?_⟩
  rw [mem_blk]
  intro a
  match a with
  | ⟨0, _⟩ => show win0_10.index t (0 : Fin 2) * 1 ≤ (i 0).val ∧ (i 0).val < win0_10.index t (0 : Fin 2) * 1 + 1; omega
  | ⟨1, _⟩ => show win0_10.index t (1 : Fin 2) * 512 ≤ (i 1).val ∧ (i 1).val < win0_10.index t (1 : Fin 2) * 512 + 512; omega

/-- THE RESULT ARRAY after the run is the cell. -/
theorem final : (dats m 0 c).arrAt 10 cfg0.N = result m c :=
  (dats m 0 c).arrAt_eq_of_cover 10 (result m c) (fun t hf => flushed_eq m c t hf) cover

/-- The kernel's run, read: every weakly fair execution ends with the result array at the cell of what the region
    found, and the arguments as they were. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.Cell.Out
-- ==== Proof.RefCell.lean ====
import proofs.«181372_j66554813218862_1_alg».proof.Proof.Gen.ReferenceIdeal.Read
import proofs.«181372_j66554813218862_1_alg».proof.Proof.CellSpec

/-! # The reference computes the cell

The reference program forms each gate's pre-activation as one inner product over all 8192 rows plus the
broadcast bias, spells the logistic function as `1 / (1 + e^(-p))` with the constant `1.0`, and combines the
four gates. Read index by index this is the function `Cert.Cell.cell` of the concatenated row and the other
arguments: the inner product's operand indices are the row `(0, k)` and the entry `(k, n)`, the bias is read at
`n`, and on the extended reals `1 / (1 + e^(-p))` IS the logistic function at every `p`, the infinities
included, so nothing is asked of the pre-activation. -/

noncomputable section

open scoped BigOperators

namespace Cert.Cell.Ref

open Cert.ReferenceIdeal Cert.ReferenceIdeal.Read Idealize.ShloMosaic Idealize.ShloMosaic.ValueIdx

/-- The word of `1.0` denotes the extended real one. -/
theorem one_f32 : Ideal.ofBits .f32 0x3F800000#32 = 1 := by
  simp [Ideal.ofBits, Ideal.ieee, -EReal.coe_mul]; norm_num

/-- An index of the row whose coordinates are `(i 0, k)` is `(0, k)`: the row has one line. -/
theorem row_idx (f : S1x8192.Idx) (i : S1x4096.Idx) (k : Fin 8192) (h0 : (f 0).val = (i 0).val) (h1 : (f 1).val = k.val) :
    f = ix2 (0 : Fin 1) k :=
  funext fun a => by
    match a with
    | ⟨0, _⟩ => exact Fin.ext (by have := idx2_lt0 i; show (f 0).val = 0; omega)
    | ⟨1, _⟩ => exact Fin.ext h1

/-- An index of the matrix whose coordinates are `(k, i 1)` is `(k, n)`, `n` the output's column. -/
theorem mat_idx (f : S8192x4096.Idx) (i : S1x4096.Idx) (k : Fin 8192) (h0 : (f 0).val = k.val) (h1 : (f 1).val = (i 1).val) :
    f = ix2 k (i 1) :=
  funext fun a => by
    match a with
    | ⟨0, _⟩ => exact Fin.ext h0
    | ⟨1, _⟩ => exact Fin.ext h1

/-- An index of the bias whose coordinate is `i 1` is the output's column. -/
theorem bias_idx (f : S4096.Idx) (i : S1x4096.Idx) (h0 : (f 0).val = (i 1).val) : f = ix1 (i 1) :=
  funext fun a => by
    match a with
    | ⟨0, _⟩ => exact Fin.ext h0

variable (x0 x1 x2 : (⟨S1x4096, .f32⟩ : BufTy).Contents (Elt Ideal))
  (x3 : (⟨S8192x4096, .f32⟩ : BufTy).Contents (Elt Ideal)) (x4 : (⟨S4096, .f32⟩ : BufTy).Contents (Elt Ideal))
  (x5 : (⟨S8192x4096, .f32⟩ : BufTy).Contents (Elt Ideal)) (x6 : (⟨S4096, .f32⟩ : BufTy).Contents (Elt Ideal))
  (x7 : (⟨S8192x4096, .f32⟩ : BufTy).Contents (Elt Ideal)) (x8 : (⟨S4096, .f32⟩ : BufTy).Contents (Elt Ideal))
  (x9 : (⟨S8192x4096, .f32⟩ : BufTy).Contents (Elt Ideal)) (x10 : (⟨S4096, .f32⟩ : BufTy).Contents (Elt Ideal))

/-- The candidate gate's pre-activation. -/
theorem pre_c (i : S1x4096.Idx) :
    val_main_v3 (F := Ideal) x0 x2 x7 x8 i = gatePre (val_main_v0 (F := Ideal) x0 x2) x7 x8 (i 1) := by
  rw [val_main_v3_apply, val_main_v1_apply, val_main_v2_apply]
  unfold gatePre
  refine congrArg₂ (· + ·) (Finset.sum_congr rfl fun k _ => ?_) ?_
  · exact congrArg₂ (· * ·) (congrArg (val_main_v0 (F := Ideal) x0 x2) (row_idx (lidx_main_v1 i k) i k rfl rfl))
      (congrArg x7 (mat_idx (ridx_main_v1 i k) i k rfl rfl))
  · exact congrArg x8 (bias_idx (idx_main_v2 i) i rfl)

/-- The forget gate's pre-activation. -/
theorem pre_f (i : S1x4096.Idx) :
    val_main_v7 (F := Ideal) x0 x2 x3 x4 i = gatePre (val_main_v0 (F := Ideal) x0 x2) x3 x4 (i 1) := by
  rw [val_main_v7_apply, val_main_v5_apply, val_main_v6_apply]
  unfold gatePre
  refine congrArg₂ (· + ·) (Finset.sum_congr rfl fun k _ => ?_) ?_
  · exact congrArg₂ (· * ·) (congrArg (val_main_v0 (F := Ideal) x0 x2) (row_idx (lidx_main_v5 i k) i k rfl rfl))
      (congrArg x3 (mat_idx (ridx_main_v5 i k) i k rfl rfl))
  · exact congrArg x4 (bias_idx (idx_main_v6 i) i rfl)

/-- The input gate's pre-activation. -/
theorem pre_i (i : S1x4096.Idx) :
    val_main_v16 (F := Ideal) x0 x2 x5 x6 i = gatePre (val_main_v0 (F := Ideal) x0 x2) x5 x6 (i 1) := by
  rw [val_main_v16_apply, val_main_v14_apply, val_main_v15_apply]
  unfold gatePre
  refine congrArg₂ (· + ·) (Finset.sum_congr rfl fun k _ => ?_) ?_
  · exact congrArg₂ (· * ·) (congrArg (val_main_v0 (F := Ideal) x0 x2) (row_idx (lidx_main_v14 i k) i k rfl rfl))
      (congrArg x5 (mat_idx (ridx_main_v14 i k) i k rfl rfl))
  · exact congrArg x6 (bias_idx (idx_main_v15 i) i rfl)

/-- The output gate's pre-activation. -/
theorem pre_o (i : S1x4096.Idx) :
    val_main_v25 (F := Ideal) x0 x2 x9 x10 i = gatePre (val_main_v0 (F := Ideal) x0 x2) x9 x10 (i 1) := by
  rw [val_main_v25_apply, val_main_v23_apply, val_main_v24_apply]
  unfold gatePre
  refine congrArg₂ (· + ·) (Finset.sum_congr rfl fun k _ => ?_) ?_
  · exact congrArg₂ (· * ·) (congrArg (val_main_v0 (F := Ideal) x0 x2) (row_idx (lidx_main_v23 i k) i k rfl rfl))
      (congrArg x9 (mat_idx (ridx_main_v23 i k) i k rfl rfl))
  · exact congrArg x10 (bias_idx (idx_main_v24 i) i rfl)

/-- The host's quotient `1 / (1 + e^(-p))` over the constant `1.0` is the logistic function of `p`. -/
theorem logistic_spelled (p : EReal) :
    FloatOps.hostDivf (F := Ideal) (φ := .f32) (FloatOps.ofBits .f32 0x3F800000#32)
        (FloatOps.addf (FloatOps.ofBits .f32 0x3F800000#32) (FloatOps.hostUnary .exp (FloatOps.hostNegf p)))
      = Ideal.logistic p := by
  simp only [Ideal.hostDivf_def, Ideal.addf_def, Ideal.hostUnary_exp_def, Ideal.hostNegf_def, Ideal.negf_def,
    Ideal.ofBits_def, one_f32]
  rfl

/-- The forget gate. -/
theorem gate_f (i : S1x4096.Idx) :
    val_main_v13 (F := Ideal) x0 x2 x3 x4 i = Ideal.logistic (gatePre (val_main_v0 (F := Ideal) x0 x2) x3 x4 (i 1)) := by
  rw [val_main_v13_apply, val_main_v12_apply, val_main_cst_0_apply, val_main_v11_apply, val_main_v10_apply,
    val_main_cst_apply, val_main_v9_apply, val_main_v8_apply, pre_f]
  exact logistic_spelled _

/-- The input gate. -/
theorem gate_i (i : S1x4096.Idx) :
    val_main_v22 (F := Ideal) x0 x2 x5 x6 i = Ideal.logistic (gatePre (val_main_v0 (F := Ideal) x0 x2) x5 x6 (i 1)) := by
  rw [val_main_v22_apply, val_main_v21_apply, val_main_cst_2_apply, val_main_v20_apply, val_main_v19_apply,
    val_main_cst_1_apply, val_main_v18_apply, val_main_v17_apply, pre_i]
  exact logistic_spelled _

/-- The output gate. -/
theorem gate_o (i : S1x4096.Idx) :
    val_main_v31 (F := Ideal) x0 x2 x9 x10 i = Ideal.logistic (gatePre (val_main_v0 (F := Ideal) x0 x2) x9 x10 (i 1)) := by
  rw [val_main_v31_apply, val_main_v30_apply, val_main_cst_4_apply, val_main_v29_apply, val_main_v28_apply,
    val_main_cst_3_apply, val_main_v27_apply, val_main_v26_apply, pre_o]
  exact logistic_spelled _

/-- THE REFERENCE IS THE CELL: its result stage, as a function of its arguments, is `cell` of the concatenated row. -/
theorem ref_eq_cell :
    val_main_v36 (F := Ideal) x0 x1 x2 x3 x4 x5 x6 x7 x8 x9 x10
      = cell (val_main_v0 (F := Ideal) x0 x2) x1 x3 x4 x5 x6 x7 x8 x9 x10 := by
  funext i
  rw [val_main_v36_apply, val_main_v35_apply, val_main_v34_apply, val_main_v32_apply, val_main_v33_apply,
    val_main_v4_apply, gate_o, gate_f, gate_i, pre_c]
  rfl

end Cert.Cell.Ref
-- ==== Proof.lean ====
/- A gated recurrent cell, tiled, against its plain reference.

   Both programs concatenate the hidden state and the input into one row `cat` of 8192 entries. For each of four
   gates (forget, input, candidate, output) with weight matrix `W` (8192 × 4096) and bias `b`, the pre-activation at
   column `n` is `p(n) = ∑ k, cat(k) · W(k, n) + b(n)`; with `σ x = 1 / (1 + e^(-x))` the result at column `n` is

       `σ(p_o) · tanh (c · σ(p_f) + tanh(p_c) · σ(p_i))`.

   The reference takes each inner product whole and spells `σ` out with the constant `1.0`. The kernel walks, for
   each tile of 512 columns, eight tiles of 1024 rows, adding each tile's partial products into four accumulators
   cleared at the first tile, and applies the gates at the last tile, using the logistic operation. On the extended
   reals the narrowing to sixteen bits is the identity, the matrix unit's product into zero is the plain sum, the
   logistic operation is `1 / (1 + e^(-x))` at every argument, and a sum over eight consecutive tiles is the sum
   over all rows by associativity alone: the two results are one function of the arguments, entry by entry, with
   nothing asked of the inputs. The ledger of idealizing rewrites is empty, so that conjunct is trivial; the three
   frames are the generated ones (the reference's is its generated run with the result dropped). -/
import proofs.«181372_j66554813218862_1_alg».proof.Defs
import proofs.«181372_j66554813218862_1_alg».proof.Proof.Gen.Kernel
import proofs.«181372_j66554813218862_1_alg».proof.Proof.Gen.Kernel.Skeleton
import proofs.«181372_j66554813218862_1_alg».proof.Proof.Gen.Kernel.Launch
import proofs.«181372_j66554813218862_1_alg».proof.Proof.Gen.Kernel.Points
import proofs.«181372_j66554813218862_1_alg».proof.Proof.Gen.Kernel.Frame
import proofs.«181372_j66554813218862_1_alg».proof.Proof.Gen.KernelIdeal
import proofs.«181372_j66554813218862_1_alg».proof.Proof.Gen.KernelIdeal.Skeleton
import proofs.«181372_j66554813218862_1_alg».proof.Proof.Gen.KernelIdeal.Launch
import proofs.«181372_j66554813218862_1_alg».proof.Proof.Gen.KernelIdeal.Points
import proofs.«181372_j66554813218862_1_alg».proof.Proof.Gen.KernelIdeal.Frame
import proofs.«181372_j66554813218862_1_alg».proof.Proof.Gen.ReferenceIdeal
import proofs.«181372_j66554813218862_1_alg».proof.Proof.Gen.Pre_finite_inputs
import proofs.«181372_j66554813218862_1_alg».proof.Proof.Gen.KernelIdeal.Value
import proofs.«181372_j66554813218862_1_alg».proof.Proof.Gen.ReferenceIdeal.Run
import proofs.«181372_j66554813218862_1_alg».proof.Proof.Gen.ReferenceIdeal.Read
import proofs.«181372_j66554813218862_1_alg».proof.Proof.KOut
import proofs.«181372_j66554813218862_1_alg».proof.Proof.RefCell
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments: the generated frame. -/
theorem frame_kernel : Cert.frame_Kernel := fun m ρ _ => Cert.Kernel.Gen.frame m ρ

/-- The same of the kernel read on the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories that agree on the arguments both programs end with the cell of the arguments: the kernel by its
    accumulated tiles, the reference by its whole inner products; the concatenated row is the same term in both. -/
theorem algebraic : Cert.algebraic_KernelIdeal_ReferenceIdeal := by
  intro m ρ m' ρ' _ hagree
  refine ⟨fun c => Cert.Cell.Out.result m c, Cert.Cell.Out.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v36_eq, Cert.Cell.Ref.ref_eq_cell, a0, a1, a2, a3, a4, a5, a6, a7, a8, a9, a10]
  show _ = Cert.Cell.Out.result m c
  unfold Cert.Cell.Out.result
  rw [Cert.Cell.Blocks.catArr_eq, Cert.Cell.Blocks.cellArr_eq, Cert.Cell.Blocks.wfArr_eq, Cert.Cell.Blocks.wiArr_eq,
    Cert.Cell.Blocks.wcArr_eq, Cert.Cell.Blocks.woArr_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
